-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x256 : Shape := ⟨4, ![16, 256, 128, 256]⟩
abbrev S19x256 : Shape := ⟨2, ![19, 256]⟩
abbrev S1 : Shape := ⟨1, ![1]⟩
abbrev S_ : Shape := ⟨0, ![]⟩

class Facts : Prop where
  bcast_S_S16x256x128x256 : S_.BroadcastsInDim S16x256x128x256 (![] : Fin 0 → Fin S16x256x128x256.rank)
  reducesTo_S16x256x128x256_S_d0_1_2_3 : S16x256x128x256.ReducesTo [0, 1, 2, 3] S_
  h_S_ : 0 < S_.numel
  bcast_S_S19x256 : S_.BroadcastsInDim S19x256 (![] : Fin 0 → Fin S19x256.rank)
  reducesTo_S19x256_S_d0_1 : S19x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16x256x128x256 .f32) (main_arg1 : FVec F S19x256 .f32) (main_arg2 : FVec F S1 .f32) : IVec S_ 1 :=
  let main_v0 : FVec F S16x256x128x256 .f32 := Host.absf main_arg0
  let main_cst : FVec F S_ .f32 := constant S_ .f32 0x7F800000#32
  let main_v1 : FVec F S16x256x128x256 .f32 := broadcastInDim S16x256x128x256 ![] bcast_S_S16x256x128x256 main_cst
  let main_v2 : IVec S16x256x128x256 1 := cmpf .olt main_v0 main_v1
  let main_c : IVec S_ 1 := constantI S_ 1 1#1
  let main_v3 : IVec S_ 1 := (fun x v => Host.reduce IntOp.andi x v reducesTo_S16x256x128x256_S_d0_1_2_3 h_S_) main_v2 main_c
  let main_v4 : FVec F S19x256 .f32 := Host.absf main_arg1
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16x256x128x256 : Shape := ⟨4, ![16, 256, 128, 256]⟩
abbrev S19x256 : Shape := ⟨2, ![19, 256]⟩
abbrev S1 : Shape := ⟨1, ![1]⟩
abbrev S_ : Shape := ⟨0, ![]⟩
abbrev S19 : Shape := ⟨1, ![19]⟩
abbrev S19x1 : Shape := ⟨2, ![19, 1]⟩
abbrev S256x19 : Shape := ⟨2, ![256, 19]⟩
abbrev S16x128x256x19 : Shape := ⟨4, ![16, 128, 256, 19]⟩
abbrev S1x256x16x256 : Shape := ⟨4, ![1, 256, 16, 256]⟩
abbrev S1x16x256x19 : Shape := ⟨4, ![1, 16, 256, 19]⟩
abbrev S256x16x256 : Shape := ⟨3, ![256, 16, 256]⟩
abbrev S16x256x256 : Shape := ⟨3, ![16, 256, 256]⟩
abbrev S4096x256 : Shape := ⟨2, ![4096, 256]⟩
abbrev S4096 : Shape := ⟨1, ![4096]⟩
abbrev S4096x1 : Shape := ⟨2, ![4096, 1]⟩
abbrev S4096x19 : Shape := ⟨2, ![4096, 19]⟩
abbrev S1x19 : Shape := ⟨2, ![1, 19]⟩
abbrev S16x256x19 : Shape := ⟨3, ![16, 256, 19]⟩
abbrev S16x19x128x256 : Shape := ⟨4, ![16, 19, 128, 256]⟩

abbrev nBuf : Space → Nat
  | .hbm => 20
  | .vmem => 7
  | .smem => 0
  | _ => 0

abbrev bufTy : (tb : Table) → Fin (tcTables nBuf tb) → BufTy
  | .hbm, ⟨0, _⟩ => ⟨S16x256x128x256, .f32⟩
  | .hbm, ⟨1, _⟩ => ⟨S19x256, .f32⟩
  | .hbm, ⟨2, _⟩ => ⟨S1, .f32⟩
  | .hbm, ⟨3, _⟩ => ⟨S19x256, .f32⟩
  | .hbm, ⟨4, _⟩ => ⟨S_, .f32⟩
  | .hbm, ⟨5, _⟩ => ⟨S19, .f32⟩
  | .hbm, ⟨6, _⟩ => ⟨S19x1, .f32⟩
  | .hbm, ⟨7, _⟩ => ⟨S19x1, .f32⟩
  | .hbm, ⟨8, _⟩ => ⟨S_, .f32⟩
  | .hbm, ⟨9, _⟩ => ⟨S19x1, .f32⟩
  | .hbm, ⟨10, _⟩ => ⟨S19x1, .f32⟩
  | .hbm, ⟨11, _⟩ => ⟨S19x256, .f32⟩
  | .hbm, ⟨12, _⟩ => ⟨S19x256, .f32⟩
  | .hbm, ⟨13, _⟩ => ⟨S256x19, .f32⟩
  | .hbm, ⟨14, _⟩ => ⟨S256x19, .bf16⟩
  | .hbm, ⟨15, _⟩ => ⟨S19x256, .f32⟩
  | .hbm, ⟨16, _⟩ => ⟨S_, .f32⟩
  | .hbm, ⟨17, _⟩ => ⟨S19, .f32⟩
  | .hbm, ⟨18, _⟩ => ⟨S16x128x256x19, .f32⟩
  | .hbm, ⟨19, _⟩ => ⟨S16x19x128x256, .f32⟩
  | .local _ .vmem, ⟨0, _⟩ => ⟨S1x256x16x256, .f32⟩
  | .local _ .vmem, ⟨1, _⟩ => ⟨S1x256x16x256, .f32⟩
  | .local _ .vmem, ⟨2, _⟩ => ⟨S256x19, .bf16⟩
  | .local _ .vmem, ⟨3, _⟩ => ⟨S19, .f32⟩
  | .local _ .vmem, ⟨4, _⟩ => ⟨S1, .f32⟩
  | .local _ .vmem, ⟨5, _⟩ => ⟨S1x16x256x19, .f32⟩
  | .local _ .vmem, ⟨6, _⟩ => ⟨S1x16x256x19, .f32⟩
  | _, _ => ⟨S16x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x19 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x256x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S19x256_S19_d1 : S19x256.ReducesTo [1] S19
  h_S_ : 0 < S_.numel
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  transposes_S19x256_S256x19_1_0 : S19x256.Transposes [1, 0] S256x19
  bitsLt_bf16_f32 : FTy.bits .bf16 < FTy.bits .f32
  inb_S1x256x16x256_S1x256x16x256_0_0_0_0 : ∀ a, (![0, 0, 0, 0] : Fin 4 → Nat) a + S1x256x16x256.size a ≤ S1x256x16x256.size a
  h_S1x256x16x256 : 0 < S1x256x16x256.numel
  shapeCasts_S1x256x16x256_S256x16x256 : S1x256x16x256.ShapeCasts S256x16x256
  transposes_S256x16x256_p1_2_0_S16x256x256 : S256x16x256.Transposes [1, 2, 0] S16x256x256
  shapeCasts_S16x256x256_S4096x256 : S16x256x256.ShapeCasts S4096x256
  reduces_S4096x256_S4096 : S4096x256.Reduces [1] S4096
  shapeCasts_S4096_S4096x1 : S4096.ShapeCasts S4096x1
  broadcasts_S4096x1_S4096x256 : S4096x1.Broadcasts S4096x256
  inb_S256x19_S256x19_0_0 : ∀ a, (![0, 0] : Fin 2 → Nat) a + S256x19.size a ≤ S256x19.size a
  h_S256x19 : 0 < S256x19.numel
  shapeCasts_S256x19_S256x19 : S256x19.ShapeCasts S256x19
  inb_S19_S19_0 : ∀ a, (![0] : Fin 1 → Nat) a + S19.size a ≤ S19.size a
  h_S19 : 0 < S19.numel
  shapeCasts_S19_S19 : S19.ShapeCasts S19
  shapeCasts_S19_S1x19 : S19.ShapeCasts S1x19
  broadcasts_S4096x1_S4096x19 : S4096x1.Broadcasts S4096x19
  broadcasts_S1x19_S4096x19 : S1x19.Broadcasts S4096x19
  inb_S1_S1_0 : ∀ a, (![0] : Fin 1 → Nat) a + S1.size a ≤ S1.size a
  h_S1 : 0 < S1.numel
  inpos_S1_p0 : ∀ a, (![0] : Fin 1 → Nat) a < S1.size a
  shapeCasts_S4096x19_S16x256x19 : S4096x19.ShapeCasts S16x256x19
  inb_S1x16x256x19_S1x16x256x19_0_0_0_0 : ∀ a, (![0, 0, 0, 0] : Fin 4 → Nat) a + S1x16x256x19.size a ≤ S1x16x256x19.size a
  h_S1x16x256x19 : 0 < S1x16x256x19.numel
  shapeCasts_S1x16x256x19_S16x256x19 : S1x16x256x19.ShapeCasts S16x256x19
  shapeCasts_S16x256x19_S1x16x256x19 : S16x256x19.ShapeCasts S1x16x256x19
  transposes_S16x128x256x19_S16x19x128x256_0_3_1_2 : S16x128x256x19.Transposes [0, 3, 1, 2] S16x19x128x256
  dot_S4096x256_S256x19_S4096x19_1_0_0_1_n_n_wf : DotDims.WF S4096x256 S256x19 S4096x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x256.size a ≤ S16x256x128x256.size a
  hwx0_0 : ∀ i : grid0.Coords, EltTy.bits .f32 = 32 ∨ (Rect.block (s := S16x256x128x256) S1x256x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x19.size a ≤ S256x19.size a
  hwx0_1 : ∀ i : grid0.Coords, EltTy.bits .bf16 = 32 ∨ (Rect.block (s := S256x19) S256x19.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19.size a ≤ S19.size a
  hwx0_2 : ∀ i : grid0.Coords, EltTy.bits .f32 = 32 ∨ (Rect.block (s := S19) S19.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x19.size a ≤ S16x128x256x19.size a
  hwx0_4 : ∀ i : grid0.Coords, EltTy.bits .f32 = 32 ∨ (Rect.block (s := S16x128x256x19) S1x16x256x19.size (cc0_transform_4 i) (hinb0_4 i)).WholeWords (EltTy.packing .f32)

variable [Facts₀]

def dot_S4096x256_S256x19_S4096x19_1_0_0_1_n_n : DotDims S4096x256 S256x19 S4096x19 where
  lhsContracting := [1]
  rhsContracting := [0]
  lhsNonContracting := [0]
  rhsNonContracting := [1]
  lhsBatch := []
  rhsBatch := []
  wf := dot_S4096x256_S256x19_S4096x19_1_0_0_1_n_n_wf

abbrev win0_0 : Pipeline.Window sig grid0 :=
  Pipeline.Window.ofSpec (Memref.whole main_arg0) S1x256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x19.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S19.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x16x256x19.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x128x256 : Shape := ⟨4, ![16, 256, 128, 256]⟩
abbrev S19x256 : Shape := ⟨2, ![19, 256]⟩
abbrev S1 : Shape := ⟨1, ![1]⟩
abbrev S16x128x256x256 : Shape := ⟨4, ![16, 128, 256, 256]⟩
abbrev S524288x256 : Shape := ⟨2, ![524288, 256]⟩
abbrev S_ : Shape := ⟨0, ![]⟩
abbrev S524288 : Shape := ⟨1, ![524288]⟩
abbrev S524288x1 : Shape := ⟨2, ![524288, 1]⟩
abbrev S19 : Shape := ⟨1, ![19]⟩
abbrev S19x1 : Shape := ⟨2, ![19, 1]⟩
abbrev S1x19 : Shape := ⟨2, ![1, 19]⟩
abbrev S524288x19 : Shape := ⟨2, ![524288, 19]⟩
abbrev S1x1 : Shape := ⟨2, ![1, 1]⟩
abbrev S16x128x256x19 : Shape := ⟨4, ![16, 128, 256, 19]⟩
abbrev S16x19x128x256 : Shape := ⟨4, ![16, 19, 128, 256]⟩

abbrev nBuf : Space → Nat
  | .hbm => 55
  | .vmem => 0
  | .smem => 0
  | _ => 0

abbrev bufTy : (tb : Table) → Fin (tcTables nBuf tb) → BufTy
  | .hbm, ⟨0, _⟩ => ⟨S16x256x128x256, .f32⟩
  | .hbm, ⟨1, _⟩ => ⟨S19x256, .f32⟩
  | .hbm, ⟨2, _⟩ => ⟨S1, .f32⟩
  | .hbm, ⟨3, _⟩ => ⟨S16x128x256x256, .f32⟩
  | .hbm, ⟨4, _⟩ => ⟨S524288x256, .f32⟩
  | .hbm, ⟨5, _⟩ => ⟨S524288x256, .f32⟩
  | .hbm, ⟨6, _⟩ => ⟨S_, .f32⟩
  | .hbm, ⟨7, _⟩ => ⟨S524288, .f32⟩
  | .hbm, ⟨8, _⟩ => ⟨S524288x1, .f32⟩
  | .hbm, ⟨9, _⟩ => ⟨S524288x1, .f32⟩
  | .hbm, ⟨10, _⟩ => ⟨S_, .f32⟩
  | .hbm, ⟨11, _⟩ => ⟨S524288x1, .f32⟩
  | .hbm, ⟨12, _⟩ => ⟨S524288x1, .f32⟩
  | .hbm, ⟨13, _⟩ => ⟨S524288x256, .f32⟩
  | .hbm, ⟨14, _⟩ => ⟨S524288x256, .f32⟩
  | .hbm, ⟨15, _⟩ => ⟨S19x256, .f32⟩
  | .hbm, ⟨16, _⟩ => ⟨S_, .f32⟩
  | .hbm, ⟨17, _⟩ => ⟨S19, .f32⟩
  | .hbm, ⟨18, _⟩ => ⟨S19x1, .f32⟩
  | .hbm, ⟨19, _⟩ => ⟨S19x1, .f32⟩
  | .hbm, ⟨20, _⟩ => ⟨S_, .f32⟩
  | .hbm, ⟨21, _⟩ => ⟨S19x1, .f32⟩
  | .hbm, ⟨22, _⟩ => ⟨S19x1, .f32⟩
  | .hbm, ⟨23, _⟩ => ⟨S19x256, .f32⟩
  | .hbm, ⟨24, _⟩ => ⟨S19x256, .f32⟩
  | .hbm, ⟨25, _⟩ => ⟨S524288x256, .f32⟩
  | .hbm, ⟨26, _⟩ => ⟨S_, .f32⟩
  | .hbm, ⟨27, _⟩ => ⟨S524288, .f32⟩
  | .hbm, ⟨28, _⟩ => ⟨S19x256, .f32⟩
  | .hbm, ⟨29, _⟩ => ⟨S_, .f32⟩
  | .hbm, ⟨30, _⟩ => ⟨S19, .f32⟩
  | .hbm, ⟨31, _⟩ => ⟨S524288x1, .f32⟩
  | .hbm, ⟨32, _⟩ => ⟨S1x19, .f32⟩
  | .hbm, ⟨33, _⟩ => ⟨S524288x19, .f32⟩
  | .hbm, ⟨34, _⟩ => ⟨S524288x19, .f32⟩
  | .hbm, ⟨35, _⟩ => ⟨S524288x19, .f32⟩
  | .hbm, ⟨36, _⟩ => ⟨S524288x19, .f32⟩
  | .hbm, ⟨37, _⟩ => ⟨S_, .f32⟩
  | .hbm, ⟨38, _⟩ => ⟨S524288x19, .f32⟩
  | .hbm, ⟨39, _⟩ => ⟨S524288x19, .f32⟩
  | .hbm, ⟨40, _⟩ => ⟨S524288x19, .f32⟩
  | .hbm, ⟨41, _⟩ => ⟨S_, .f32⟩
  | .hbm, ⟨42, _⟩ => ⟨S524288x19, .f32⟩
  | .hbm, ⟨43, _⟩ => ⟨S524288x19, .f32⟩
  | .hbm, ⟨44, _⟩ => ⟨S524288x19, .f32⟩
  | .hbm, ⟨45, _⟩ => ⟨S1, .f32⟩
  | .hbm, ⟨46, _⟩ => ⟨S1x1, .f32⟩
  | .hbm, ⟨47, _⟩ => ⟨S524288x19, .f32⟩
  | .hbm, ⟨48, _⟩ => ⟨S524288x19, .f32⟩
  | .hbm, ⟨49, _⟩ => ⟨S16x128x256x19, .f32⟩
  | .hbm, ⟨50, _⟩ => ⟨S16x19x128x256, .f32⟩
  | .hbm, ⟨51, _⟩ => ⟨S16x19x128x256, .f32⟩
  | .hbm, ⟨52, _⟩ => ⟨S_, .f32⟩
  | .hbm, ⟨53, _⟩ => ⟨S16x19x128x256, .f32⟩
  | .hbm, ⟨54, _⟩ => ⟨S16x19x128x256, .f32⟩
  | _, _ => ⟨S16x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  transposes_S16x256x128x256_S16x128x256x256_0_2_3_1 : S16x256x128x256.Transposes [0, 2, 3, 1] S16x128x256x256
  shapeCasts_S16x128x256x256_S524288x256 : S16x128x256x256.ShapeCasts S524288x256
  reducesTo_S524288x256_S524288_d1 : S524288x256.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x256_0_1 : S524288x1.BroadcastsInDim S524288x256 (![0, 1] : Fin 2 → Fin S524288x256.rank)
  reducesTo_S19x256_S19_d1 : S19x256.ReducesTo [1] S19
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  bcast_S19_S1x19_1 : S19.BroadcastsInDim S1x19 (![1] : Fin 1 → Fin S1x19.rank)
  bcast_S524288x1_S524288x19_0_1 : S524288x1.BroadcastsInDim S524288x19 (![0, 1] : Fin 2 → Fin S524288x19.rank)
  bcast_S1x19_S524288x19_0_1 : S1x19.BroadcastsInDim S524288x19 (![0, 1] : Fin 2 → Fin S524288x19.rank)
  bcast_S_S524288x19 : S_.BroadcastsInDim S524288x19 (![] : Fin 0 → Fin S524288x19.rank)
  bcast_S1_S1x1_1 : S1.BroadcastsInDim S1x1 (![1] : Fin 1 → Fin S1x1.rank)
  bcast_S1x1_S524288x19_0_1 : S1x1.BroadcastsInDim S524288x19 (![0, 1] : Fin 2 → Fin S524288x19.rank)
  shapeCasts_S524288x19_S16x128x256x19 : S524288x19.ShapeCasts S16x128x256x19
  transposes_S16x128x256x19_S16x19x128x256_0_3_1_2 : S16x128x256x19.Transposes [0, 3, 1, 2] S16x19x128x256
  bcast_S_S16x19x128x256 : S_.BroadcastsInDim S16x19x128x256 (![] : Fin 0 → Fin S16x19x128x256.rank)
  dot_S524288x256_S19x256_S524288x19_1_1_0_0_n_n_wf : DotDims.WF S524288x256 S19x256 S524288x19 [1] [1] [0] [0] [] []

variable [Facts₀]

def dot_S524288x256_S19x256_S524288x19_1_1_0_0_n_n : DotDims S524288x256 S19x256 S524288x19 where
  lhsContracting := [1]
  rhsContracting := [1]
  lhsNonContracting := [0]
  rhsNonContracting := [0]
  lhsBatch := []
  rhsBatch := []
  wf := dot_S524288x256_S19x256_S524288x19_1_1_0_0_n_n_wf

class Facts : Prop extends Facts₀ where

variable [Facts]
-- ==== Proof.Spec.lean ====
/-
  The distance logits as one function of the three argument arrays, over the extended reals.

  For a feature vector `x : Fin 256 → EReal` (the 256 channels at one pixel) and a prototype row
  `p : Fin 256 → EReal`, both are scaled to unit length (`unit`: divide by the larger of the Euclidean
  norm and the floor 1e-12), the squared distance is expanded as ‖u‖² + ‖q‖² − 2⟨u, q⟩, clamped at zero,
  rooted, scaled by |s| and negated (`logit`). `logits` lays this out over the result's index
  (image, class, row, column).  The two closing facts say that subtracting from zero is negation and
  that multiplying or dividing by the literal 1.0 changes nothing on the extended reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The norm floor, the float 1e-12 as the real its bits denote (never evaluated: it is the same word on both sides). -/
abbrev floor : EReal := Ideal.ofBits .f32 0x2B8CBCCC#32
/-- The float 2.0, likewise left as its word. -/
abbrev two : EReal := Ideal.ofBits .f32 0x40000000#32

/-- The sum of squares of a vector. -/
def ssq (v : Fin 256 → EReal) : EReal := ∑ k : Fin 256, v k * v k

/-- A vector scaled to unit length, the norm floored. -/
def unit (v : Fin 256 → EReal) : Fin 256 → EReal :=
  fun c => Ideal.div (v c) (max (Ideal.sqrt (ssq v)) floor)

/-- The clamped, rooted squared distance of two vectors by the quadratic expansion. -/
def dist (u q : Fin 256 → EReal) : EReal :=
  Ideal.sqrt (max ((ssq u + ssq q) - two * ∑ k : Fin 256, u k * q k) 0)

/-- One logit: the negated, scaled distance of the unit feature vector and the unit prototype. -/
def logit (x p : Fin 256 → EReal) (s : EReal) : EReal :=
  -(max s (-s) * dist (unit x) (unit p))

/-- The channel vector of the feature array at image `b`, row `h`, column `w`. -/
def pixel (x : (⟨4, ![16, 256, 128, 256]⟩ : Shape).Idx → EReal) (b : Fin 16) (h : Fin 128) (w : Fin 256) : Fin 256 → EReal :=
  fun c => x (ix4 b c h w)

/-- Row `k` of the prototype array. -/
def proto (p : (⟨2, ![19, 256]⟩ : Shape).Idx → EReal) (k : Fin 19) : Fin 256 → EReal :=
  fun c => p (ix2 k c)

/-- The result array: entry (b, k, h, w) is the logit of pixel (b, h, w) against prototype k. -/
def logits (x : (⟨4, ![16, 256, 128, 256]⟩ : Shape).Idx → EReal) (p : (⟨2, ![19, 256]⟩ : Shape).Idx → EReal)
    (s : (⟨1, ![1]⟩ : Shape).Idx → EReal) : (⟨4, ![16, 19, 128, 256]⟩ : Shape).Idx → EReal :=
  fun i => logit (pixel x (i 0) (i 2) (i 3)) (proto p (i 1)) (s (ix1 0))

/-- The float 1.0 denotes the real one. -/
theorem ofBits_one : Ideal.ofBits .f32 0x3F800000#32 = 1 := by
  simp [Ideal.ofBits, Ideal.ieee, -EReal.coe_mul]; norm_num

/-- Dividing by the float 1.0 changes nothing. -/
theorem div_one (a : EReal) : Ideal.div a (Ideal.ofBits .f32 0x3F800000#32) = a := by
  rw [ofBits_one, ← EReal.coe_one, Ideal.div_coe one_ne_zero, one_div, inv_one, EReal.coe_one, mul_one]

/-- Multiplying by the float 1.0 changes nothing. -/
theorem mul_one' (a : EReal) : a * Ideal.ofBits .f32 0x3F800000#32 = a := by
  rw [ofBits_one, mul_one]

/-- Subtracting from the float 0.0 is negation. -/
theorem zero_sub' (a : EReal) : Ideal.ofBits .f32 0x00000000#32 - a = -a := by
  rw [Ideal.ofBits_zero_f32, zero_sub]

/-- A sum started from the float 0.0 is the sum. -/
theorem zero_add' (a : EReal) : Ideal.ofBits .f32 0x00000000#32 + a = a := by
  rw [Ideal.ofBits_zero_f32, zero_add]

end Cert.Spec

end
-- ==== Proof.RefSide.lean ====
/-
  The reference program computes `Spec.logits`.

  The reference flattens the feature array to 524288 pixel rows of 256 channels (row n is image n / 32768,
  row (n / 256) mod 128, column n mod 256), scales each row and each prototype to unit length, expands the
  squared distance, clamps, roots, scales by |s|, restores the four axes, moves the class axis forward,
  negates and divides by one.  Each stage is read at an index given by its coordinates; the sums that start
  from the float zero are plain sums, and the closing division by one is the identity.
-/
import proofs.«147738_j75780402971149_1_alg».proof.Proof.Gen.ReferenceIdeal.Read
import proofs.«147738_j75780402971149_1_alg».proof.Proof.Spec

noncomputable section

open scoped BigOperators

namespace Cert.RefSide

open Cert.ReferenceIdeal Cert.ReferenceIdeal.Gen Cert.ReferenceIdeal.Read Idealize.ShloMosaic Idealize.ShloMosaic.ValueIdx Cert.Spec

/-- Image, row and column of a flattened pixel row. -/
def rb (n : Fin 524288) : Fin 16 := ⟨n.val / 32768, by have := n.isLt; omega⟩
def rh (n : Fin 524288) : Fin 128 := ⟨n.val / 256 % 128, by omega⟩
def rc (n : Fin 524288) : Fin 256 := ⟨n.val % 256, by omega⟩
/-- The flattened pixel row of image `b`, row `h`, column `w`. -/
def rown (b : Fin 16) (h : Fin 128) (w : Fin 256) : Fin 524288 :=
  ⟨(b.val * 128 + h.val) * 256 + w.val, by have := b.isLt; have := h.isLt; have := w.isLt; omega⟩

theorem rb_rown (b : Fin 16) (h : Fin 128) (w : Fin 256) : rb (rown b h w) = b :=
  Fin.ext (by show ((b.val * 128 + h.val) * 256 + w.val) / 32768 = b.val; have := b.isLt; have := h.isLt; have := w.isLt; omega)
theorem rh_rown (b : Fin 16) (h : Fin 128) (w : Fin 256) : rh (rown b h w) = h :=
  Fin.ext (by show ((b.val * 128 + h.val) * 256 + w.val) / 256 % 128 = h.val; have := b.isLt; have := h.isLt; have := w.isLt; omega)
theorem rc_rown (b : Fin 16) (h : Fin 128) (w : Fin 256) : rc (rown b h w) = w :=
  Fin.ext (by show ((b.val * 128 + h.val) * 256 + w.val) % 256 = w.val; have := b.isLt; have := h.isLt; have := w.isLt; omega)

variable (x0 : (⟨S16x256x128x256, .f32⟩ : BufTy).Contents (Elt Ideal)) (x1 : (⟨S19x256, .f32⟩ : BufTy).Contents (Elt Ideal))
  (x2 : (⟨S1, .f32⟩ : BufTy).Contents (Elt Ideal))

/-- The channel vector of flattened row `n`. -/
abbrev pix (n : Fin 524288) : Fin 256 → EReal := pixel x0 (rb n) (rh n) (rc n)

/-- The flattened feature array: row `n`, channel `c`. -/
theorem v1_at (n : Fin 524288) (c : Fin 256) : val_main_v1 (F := Ideal) x0 (ix2 n c) = pix x0 n c := by
  rw [val_main_v1_apply, val_main_v0_apply]
  show x0 _ = x0 _
  refine congrArg x0 (funext fun a => Fin.ext ?_)
  have hn := n.isLt; have hc := c.isLt
  match a with
  | ⟨0, _⟩ => show (n.val * 256 + c.val) / 8388608 = n.val / 32768; omega
  | ⟨1, _⟩ => show (n.val * 256 + c.val) % 256 = c.val; omega
  | ⟨2, _⟩ => show (n.val * 256 + c.val) / 65536 % 128 = n.val / 256 % 128; omega
  | ⟨3, _⟩ => show (n.val * 256 + c.val) / 256 % 256 = n.val % 256; omega

/-- Each row's sum of squares. -/
theorem v3_at (n : Fin 524288) : val_main_v3 (F := Ideal) x0 (ix1 n) = ssq (pix x0 n) := by
  rw [val_main_v3_apply, val_main_cst_apply, Ideal.ofBits_def, zero_add']
  unfold ssq
  refine Finset.sum_congr rfl fun k _ => ?_
  have e : idx_main_v3 (ix1 n) k = ix2 n k := funext fun a => Fin.ext (by match a with | ⟨0, _⟩ => rfl | ⟨1, _⟩ => rfl)
  rw [e, val_main_v2_apply, Ideal.mulf_def, v1_at]

/-- Each row's floored norm, spread over the channels. -/
theorem v8_at (n : Fin 524288) (c : Fin 256) :
    val_main_v8 (F := Ideal) x0 (ix2 n c) = max (Ideal.sqrt (ssq (pix x0 n))) floor := by
  have e8 : idx_main_v8 (ix2 n c) = ix2 n (⟨0, Nat.one_pos⟩ : Fin 1) := funext fun a => Fin.ext (by match a with | ⟨0, _⟩ => rfl | ⟨1, _⟩ => rfl)
  have e4 : idx_main_v4 (ix2 n (⟨0, Nat.one_pos⟩ : Fin 1)) = ix1 n := funext fun a => Fin.ext (by match a with | ⟨0, _⟩ => rfl)
  rw [val_main_v8_apply, e8, val_main_v7_apply, val_main_v5_apply, val_main_v4_apply, e4, v3_at, val_main_v6_apply,
    val_main_cst_0_apply, Ideal.ofBits_def, Ideal.maximumf_def, Ideal.hostUnary_sqrt_def]

/-- The unit rows. -/
theorem v9_at (n : Fin 524288) (c : Fin 256) : val_main_v9 (F := Ideal) x0 (ix2 n c) = unit (pix x0 n) c := by
  rw [val_main_v9_apply, v1_at, v8_at, Ideal.hostDivf_def]
  rfl

/-- The unit rows' sums of squares. -/
theorem v19_at (n : Fin 524288) : val_main_v19 (F := Ideal) x0 (ix1 n) = ssq (unit (pix x0 n)) := by
  rw [val_main_v19_apply, val_main_cst_3_apply, Ideal.ofBits_def, zero_add']
  unfold ssq
  refine Finset.sum_congr rfl fun k _ => ?_
  have e : idx_main_v19 (ix1 n) k = ix2 n k := funext fun a => Fin.ext (by match a with | ⟨0, _⟩ => rfl | ⟨1, _⟩ => rfl)
  rw [e, val_main_v18_apply, Ideal.mulf_def, v9_at]

/-- The unit prototypes. -/
theorem v17_at (k : Fin 19) (c : Fin 256) : val_main_v17 (F := Ideal) x1 (ix2 k c) = unit (proto x1 k) c := by
  have e16 : idx_main_v16 (ix2 k c) = ix2 k (⟨0, Nat.one_pos⟩ : Fin 1) := funext fun a => Fin.ext (by match a with | ⟨0, _⟩ => rfl | ⟨1, _⟩ => rfl)
  have e12 : idx_main_v12 (ix2 k (⟨0, Nat.one_pos⟩ : Fin 1)) = ix1 k := funext fun a => Fin.ext (by match a with | ⟨0, _⟩ => rfl)
  have hs : val_main_v11 (F := Ideal) x1 (ix1 k) = ssq (proto x1 k) := by
    rw [val_main_v11_apply, val_main_cst_1_apply, Ideal.ofBits_def, zero_add']
    unfold ssq
    refine Finset.sum_congr rfl fun j _ => ?_
    have e : idx_main_v11 (ix1 k) j = ix2 k j := funext fun a => Fin.ext (by match a with | ⟨0, _⟩ => rfl | ⟨1, _⟩ => rfl)
    rw [e, val_main_v10_apply, Ideal.mulf_def]
    rfl
  rw [val_main_v17_apply, val_main_v16_apply, e16, val_main_v15_apply, val_main_v13_apply, val_main_v12_apply, e12, hs,
    val_main_v14_apply, val_main_cst_2_apply, Ideal.ofBits_def, Ideal.maximumf_def, Ideal.hostUnary_sqrt_def, Ideal.hostDivf_def]
  rfl

/-- The unit prototypes' sums of squares. -/
theorem v21_at (k : Fin 19) : val_main_v21 (F := Ideal) x1 (ix1 k) = ssq (unit (proto x1 k)) := by
  rw [val_main_v21_apply, val_main_cst_4_apply, Ideal.ofBits_def, zero_add']
  unfold ssq
  refine Finset.sum_congr rfl fun j _ => ?_
  have e : idx_main_v21 (ix1 k) j = ix2 k j := funext fun a => Fin.ext (by match a with | ⟨0, _⟩ => rfl | ⟨1, _⟩ => rfl)
  rw [e, val_main_v20_apply, Ideal.mulf_def, v17_at]

/-- The inner products of unit rows and unit prototypes. -/
theorem v27_at (n : Fin 524288) (k : Fin 19) :
    val_main_v27 (F := Ideal) x0 x1 (ix2 n k) = ∑ c : Fin 256, unit (pix x0 n) c * unit (proto x1 k) c := by
  rw [val_main_v27_apply]
  refine Finset.sum_congr rfl fun c _ => ?_
  have el : lidx_main_v27 (ix2 n k) c = ix2 n c := funext fun a => Fin.ext (by match a with | ⟨0, _⟩ => rfl | ⟨1, _⟩ => rfl)
  have er : ridx_main_v27 (ix2 n k) c = ix2 k c := funext fun a => Fin.ext (by match a with | ⟨0, _⟩ => rfl | ⟨1, _⟩ => rfl)
  rw [el, er, v9_at, v17_at]

/-- The scaled distances, before the axes are restored. -/
theorem v37_at (n : Fin 524288) (k : Fin 19) :
    val_main_v37 (F := Ideal) x0 x1 x2 (ix2 n k)
      = max (x2 (ix1 0)) (-(x2 (ix1 0))) * dist (unit (pix x0 n)) (unit (proto x1 k)) := by
  have e24 : idx_main_v24 (ix2 n k) = ix2 n (⟨0, Nat.one_pos⟩ : Fin 1) := funext fun a => Fin.ext (by match a with | ⟨0, _⟩ => rfl | ⟨1, _⟩ => rfl)
  have e22 : idx_main_v22 (ix2 n (⟨0, Nat.one_pos⟩ : Fin 1)) = ix1 n := funext fun a => Fin.ext (by match a with | ⟨0, _⟩ => rfl)
  have e25 : idx_main_v25 (ix2 n k) = ix2 (⟨0, Nat.one_pos⟩ : Fin 1) k := funext fun a => Fin.ext (by match a with | ⟨0, _⟩ => rfl | ⟨1, _⟩ => rfl)
  have e23 : idx_main_v23 (ix2 (⟨0, Nat.one_pos⟩ : Fin 1) k) = ix1 k := funext fun a => Fin.ext (by match a with | ⟨0, _⟩ => rfl)
  have e35 : idx_main_v35 (idx_main_v36 (ix2 n k)) = ix1 (0 : Fin 1) := funext fun a => Fin.ext (by match a with | ⟨0, _⟩ => rfl)
  rw [val_main_v37_apply, val_main_v36_apply, val_main_v35_apply, e35, val_main_v34_apply, val_main_v33_apply,
    val_main_v32_apply, val_main_v30_apply, val_main_v26_apply, val_main_v24_apply, e24, val_main_v22_apply, e22, v19_at,
    val_main_v25_apply, e25, val_main_v23_apply, e23, v21_at, val_main_v29_apply, val_main_v28_apply, val_main_cst_5_apply,
    v27_at, val_main_v31_apply, val_main_cst_6_apply]
  simp only [Ideal.ofBits_def, Ideal.mulf_def, Ideal.addf_def, Ideal.subf_def, Ideal.maximumf_def, Ideal.hostUnary_sqrt_def,
    Ideal.hostAbsf_def, Ideal.absf_def, Ideal.ofBits_zero_f32]
  rfl

/-- The reference's result is the specification's array. -/
theorem ref_eq : val_main_v42 (F := Ideal) x0 x1 x2 = logits x0 x1 x2 := by
  funext i
  obtain ⟨b, k, h, w, rfl⟩ : ∃ (b : Fin 16) (k : Fin 19) (h : Fin 128) (w : Fin 256), i = ix4 b k h w :=
    ⟨i 0, i 1, i 2, i 3, eq_ix4 i⟩
  have e : idx_main_v38 (idx_main_v39 (ix4 b k h w)) = ix2 (rown b h w) k := by
    refine funext fun a => Fin.ext ?_
    have h0 := b.isLt; have h1 := k.isLt; have h2 := h.isLt; have h3 := w.isLt
    match a with
    | ⟨0, _⟩ => show (((b.val * 128 + h.val) * 256 + w.val) * 19 + k.val) / 19 = (b.val * 128 + h.val) * 256 + w.val; omega
    | ⟨1, _⟩ => show (((b.val * 128 + h.val) * 256 + w.val) * 19 + k.val) % 19 = k.val; omega
  rw [val_main_v42_apply, val_main_v41_apply, val_main_cst_7_apply, val_main_v40_apply, val_main_v39_apply, val_main_v38_apply,
    e, v37_at, Ideal.ofBits_def, Ideal.hostDivf_def, Ideal.hostNegf_def, Ideal.negf_def, div_one]
  show _ = logit (pixel x0 b h w) (proto x1 k) (x2 (ix1 0))
  unfold logit pix
  rw [rb_rown, rh_rown, rc_rown]

end Cert.RefSide

end
-- ==== Proof.KStages.lean ====
/-
  The kernel body's layout operations and contractions, each read at one index.

  A block is sixteen image rows of one image: 256 channels by 16 rows by 256 columns.  The body moves the
  channel axis last and flattens the 16 × 256 pixels to 4096 rows (pixel (r, w) is row 256 r + w); a row sum
  kept as a column is the sum over the 256 channels; a column or a row spread over a matrix reads its one
  entry; the matrix product into a zero accumulator is the sum over the channels of the products.
-/
import proofs.«147738_j75780402971149_1_alg».proof.Proof.Gen.KernelIdeal.Skeleton
import proofs.«147738_j75780402971149_1_alg».proof.Proof.Spec
import Idealize.ShloMosaic.Lib.Pipeline.Value
import Idealize.ShloMosaic.Lib.ValueIdx
import Idealize.ShloMosaic.PureOps.Ideal.Laws

noncomputable section

open scoped BigOperators

namespace Cert.KBody

open Cert.KernelIdeal Cert.KernelIdeal.Gen Idealize.ShloMosaic Idealize.ShloMosaic.ValueIdx Cert.Spec

/-- The flattened row of pixel (r, w) of a block. -/
def brow (r : Fin 16) (w : Fin 256) : Fin 4096 := ⟨r.val * 256 + w.val, by have := r.isLt; have := w.isLt; omega⟩

/-! ## The layout operations and the two contractions, each read at an index -/

/-- Channels last, pixels flattened: row 256 r + w, channel c is the block at (c, r, w). -/
theorem rows_at {α : Type} (x0 : S1x256x16x256.Idx → α) (h1 : S1x256x16x256.ShapeCasts S256x16x256)
    (h2 : S256x16x256.Transposes [1, 2, 0] S16x256x256) (h3 : S16x256x256.ShapeCasts S4096x256) (r : Fin 16) (w c : Fin 256) :
    shapeCast S4096x256 (transpose S16x256x256 [1, 2, 0] (shapeCast S256x16x256 x0 h1) h2) h3 (ix2 (brow r w) c)
      = x0 (ix4 (0 : Fin 1) c r w) := by
  rw [shapeCast_apply _ h3 (ix2 (brow r w) c) (ix3 r w c) (by
        rewrite [Shape.rowMajor_val_three, Shape.rowMajor_val_two]
        show (r.val * 256 + w.val) * 256 + c.val = (r.val * 256 + w.val) * 256 + c.val; rfl),
    transpose_apply [1, 2, 0] _ h2 (ix3 r w c) (ix3 c r w) (fun b => match b with | ⟨0, _⟩ => rfl | ⟨1, _⟩ => rfl | ⟨2, _⟩ => rfl),
    shapeCast_apply x0 h1 (ix3 c r w) (ix4 (0 : Fin 1) c r w) (by
        rewrite [Shape.rowMajor_val_four, Shape.rowMajor_val_three]
        show ((0 * 256 + c.val) * 16 + r.val) * 256 + w.val = (c.val * 16 + r.val) * 256 + w.val; omega)]

/-- A row sum kept as a column: the sum over the channels. -/
theorem rowsum_at (v : FVec Ideal S4096x256 .f32) (hr : S4096x256.Reduces [1] S4096) (hφ : FTy.f32 = FTy.f32 ∨ FTy.f32 = FTy.bf16)
    (hacc : (0x00000000#32 : BitVec 32) = 0x00000000#32) (hs : S4096.ShapeCasts S4096x1) (n : Fin 4096) (u : Fin 1) :
    shapeCast S4096x1 (multiReduction .add [1] S4096 v 0x00000000#32 hr hφ hacc) hs (ix2 n u)
      = ∑ c : Fin 256, v (ix2 n c) := by
  rw [shapeCast_apply _ hs (ix2 n u) (ix1 n) (by
        rewrite [Shape.rowMajor_val_one, Shape.rowMajor_val_two]
        show n.val = n.val * 1 + u.val; have := u.isLt; omega)]
  refine (Ideal.multiReduction_add_single v 0x00000000#32 hr hφ hacc (ix1 n)).trans ?_
  refine Finset.sum_congr rfl fun c _ => ?_
  exact congrArg v (funext fun a => Fin.ext (by match a with | ⟨0, _⟩ => rfl | ⟨1, _⟩ => rfl))

/-- A column spread over 256 channels. -/
theorem col256_at (v : FVec Ideal S4096x1 .f32) (h : S4096x1.Broadcasts S4096x256) (n : Fin 4096) (c : Fin 256) :
    broadcastTo S4096x256 v h (ix2 n c) = v (ix2 n (0 : Fin 1)) :=
  broadcastTo_apply v h (ix2 n c) (ix2 n (0 : Fin 1)) (fun a => match a with
    | ⟨0, _⟩ => by show n.val = if (4096 : Nat) = 1 then 0 else n.val; rw [if_neg (by decide)]
    | ⟨1, _⟩ => by show 0 = if (1 : Nat) = 1 then 0 else c.val; rw [if_pos rfl])

/-- A column spread over the 19 classes. -/
theorem col19_at (v : FVec Ideal S4096x1 .f32) (h : S4096x1.Broadcasts S4096x19) (n : Fin 4096) (k : Fin 19) :
    broadcastTo S4096x19 v h (ix2 n k) = v (ix2 n (0 : Fin 1)) :=
  broadcastTo_apply v h (ix2 n k) (ix2 n (0 : Fin 1)) (fun a => match a with
    | ⟨0, _⟩ => by show n.val = if (4096 : Nat) = 1 then 0 else n.val; rw [if_neg (by decide)]
    | ⟨1, _⟩ => by show 0 = if (1 : Nat) = 1 then 0 else k.val; rw [if_pos rfl])

/-- The prototypes' sums of squares as a row spread over the 4096 pixels. -/
theorem row19_at {α : Type} (x2 : S19.Idx → α) (h1 : S19.ShapeCasts S1x19) (h : S1x19.Broadcasts S4096x19)
    (n : Fin 4096) (k : Fin 19) :
    broadcastTo S4096x19 (shapeCast S1x19 x2 h1) h (ix2 n k) = x2 (ix1 k) := by
  rw [broadcastTo_apply _ h (ix2 n k) (ix2 (0 : Fin 1) k) (fun a => match a with
      | ⟨0, _⟩ => by show 0 = if (1 : Nat) = 1 then 0 else n.val; rw [if_pos rfl]
      | ⟨1, _⟩ => by show k.val = if (19 : Nat) = 1 then 0 else k.val; rw [if_neg (by decide)]),
    shapeCast_apply _ h1 (ix2 (0 : Fin 1) k) (ix1 k) (by
      rewrite [Shape.rowMajor_val_one, Shape.rowMajor_val_two]
      show k.val = 0 * 19 + k.val; omega)]

theorem lhs_mm_0 (i : S4096x19.Idx) (q : dot_S4096x256_S256x19_S4096x19_1_0_0_1_n_n.contr.Idx) :
    (dot_S4096x256_S256x19_S4096x19_1_0_0_1_n_n.lhsIdx i q 0).val = (i 0).val := by
  unfold DotDims.lhsIdx
  rw [dif_neg (show ¬(0 : Fin S4096x256.rank) ∈ dot_S4096x256_S256x19_S4096x19_1_0_0_1_n_n.lhsBatch by decide), dif_pos (show (0 : Fin S4096x256.rank) ∈ dot_S4096x256_S256x19_S4096x19_1_0_0_1_n_n.lhsNonContracting by decide)]
  rfl
theorem lhs_mm_1 (i : S4096x19.Idx) (q : dot_S4096x256_S256x19_S4096x19_1_0_0_1_n_n.contr.Idx) :
    (dot_S4096x256_S256x19_S4096x19_1_0_0_1_n_n.lhsIdx i q 1).val = (q ⟨0, by decide⟩).val :=
  dot_S4096x256_S256x19_S4096x19_1_0_0_1_n_n.lhsIdx_val_of_single rfl i q
theorem rhs_mm_0 (i : S4096x19.Idx) (q : dot_S4096x256_S256x19_S4096x19_1_0_0_1_n_n.contr.Idx) :
    (dot_S4096x256_S256x19_S4096x19_1_0_0_1_n_n.rhsIdx i q 0).val = (q ⟨0, by decide⟩).val :=
  dot_S4096x256_S256x19_S4096x19_1_0_0_1_n_n.rhsIdx_val_of_single rfl i q
theorem rhs_mm_1 (i : S4096x19.Idx) (q : dot_S4096x256_S256x19_S4096x19_1_0_0_1_n_n.contr.Idx) :
    (dot_S4096x256_S256x19_S4096x19_1_0_0_1_n_n.rhsIdx i q 1).val = (i 1).val := by
  unfold DotDims.rhsIdx
  rw [dif_neg (show ¬(1 : Fin S256x19.rank) ∈ dot_S4096x256_S256x19_S4096x19_1_0_0_1_n_n.rhsBatch by decide), dif_pos (show (1 : Fin S256x19.rank) ∈ dot_S4096x256_S256x19_S4096x19_1_0_0_1_n_n.rhsNonContracting by decide)]
  rfl

/-- The matrix product into a zero accumulator: row n against column k, summed over the channels. -/
theorem mm_at (a : FVec Ideal S4096x256 .bf16) (b : FVec Ideal S256x19 .bf16) (n : Fin 4096) (k : Fin 19) :
    matmul dot_S4096x256_S256x19_S4096x19_1_0_0_1_n_n none a b (constant S4096x19 .f32 0x00000000#32) (ix2 n k)
      = ∑ c : Fin 256, a (ix2 n c) * b (ix2 c k) := by
  simp only [matmul]
  rw [Ideal.matmul_constant_zero_apply, ← Equiv.sum_comp (ValueIdx.contrEquiv1 dot_S4096x256_S256x19_S4096x19_1_0_0_1_n_n 256 rfl rfl).symm]
  refine Finset.sum_congr rfl fun c _ => ?_
  have hk := ValueIdx.contrEquiv1_symm_val dot_S4096x256_S256x19_S4096x19_1_0_0_1_n_n 256 rfl rfl c
  have el : dot_S4096x256_S256x19_S4096x19_1_0_0_1_n_n.lhsIdx (ix2 n k) ((ValueIdx.contrEquiv1 dot_S4096x256_S256x19_S4096x19_1_0_0_1_n_n 256 rfl rfl).symm c) = ix2 n c := funext fun d => Fin.ext (by
    match d with
    | ⟨0, _⟩ => exact lhs_mm_0 _ _
    | ⟨1, _⟩ => exact (lhs_mm_1 _ _).trans hk)
  have er : dot_S4096x256_S256x19_S4096x19_1_0_0_1_n_n.rhsIdx (ix2 n k) ((ValueIdx.contrEquiv1 dot_S4096x256_S256x19_S4096x19_1_0_0_1_n_n 256 rfl rfl).symm c) = ix2 c k := funext fun d => Fin.ext (by
    match d with
    | ⟨0, _⟩ => exact (rhs_mm_0 _ _).trans hk
    | ⟨1, _⟩ => exact rhs_mm_1 _ _)
  rw [el, er]

/-- The 4096 × 19 result laid back out as rows and columns of the block: entry (r, w, k) is row 256 r + w, class k. -/
theorem out_at {α : Type} (v : S4096x19.Idx → α) (h : S4096x19.ShapeCasts S16x256x19) (h' : S16x256x19.ShapeCasts S1x16x256x19)
    (r : Fin 16) (w : Fin 256) (k : Fin 19) :
    shapeCast S1x16x256x19 (shapeCast S16x256x19 v h) h' (ix4 (0 : Fin 1) r w k) = v (ix2 (brow r w) k) := by
  rw [shapeCast_apply _ h' (ix4 (0 : Fin 1) r w k) (ix3 r w k) (by
        rewrite [Shape.rowMajor_val_four, Shape.rowMajor_val_three]
        show (r.val * 256 + w.val) * 19 + k.val = ((0 * 16 + r.val) * 256 + w.val) * 19 + k.val; omega),
    shapeCast_apply v h (ix3 r w k) (ix2 (brow r w) k) (by
        rewrite [Shape.rowMajor_val_two, Shape.rowMajor_val_three]
        show (r.val * 256 + w.val) * 19 + k.val = (r.val * 256 + w.val) * 19 + k.val; rfl)]

theorem sqrt_at {s : Shape} {φ : FTy} (a : FVec Ideal s φ) (i : s.Idx) : sqrt a i = Ideal.sqrt (a i) := rfl

/-- The scale, read out of its one-entry block. -/
theorem scale_at (x3 : FVec Ideal S1 .f32) (h : ∀ a, (![0] : Fin 1 → Nat) a < S1.size a) :
    Scalar.absf (F := Ideal) (φ := .f32) (extractAt ![0] x3 h) = max (x3 (ix1 0)) (-(x3 (ix1 0))) := by
  have e : extractAt ![0] x3 h = x3 (ix1 0) :=
    congrArg x3 (funext fun a => Fin.ext (by match a with | ⟨0, _⟩ => rfl))
  rw [e]; rfl

/-- The same with the block typed as a loaded vector. -/
theorem scale_at' (x3 : Vec Ideal S1 .f32) (h : ∀ a, (![0] : Fin 1 → Nat) a < S1.size a) :
    Scalar.absf (F := Ideal) (φ := .f32) (extractAt ![0] x3 h) = max (x3 (ix1 0)) (-(x3 (ix1 0))) := by
  have e : extractAt ![0] x3 h = x3 (ix1 0) :=
    congrArg x3 (funext fun a => Fin.ext (by match a with | ⟨0, _⟩ => rfl))
  rw [e]; rfl

end Cert.KBody

end
-- ==== Proof.KBody.lean ====
/-
  What the kernel body stores for one block, read at one entry.

  With the layout operations read away, the body scales each pixel's channel vector to unit length, sums
  its squares, multiplies it with column k of the 256 × 19 matrix of unit prototypes, expands the squared
  distance with that column's own sum of squares, clamps, roots, scales by |s|, subtracts from zero and
  multiplies by one: the negated scaled distance of the unit channel vector from the column.
-/
import proofs.«147738_j75780402971149_1_alg».proof.Proof.KStages

noncomputable section

open scoped BigOperators

namespace Cert.KBody

open Cert.KernelIdeal Cert.KernelIdeal.Gen Idealize.ShloMosaic Idealize.ShloMosaic.ValueIdx Cert.Spec

/-! ## The body's result at one entry -/

/-- One entry of a block's result from the pixel's channel vector `xr`, the matrix column `pc`, that column's
    sum of squares `ppk` and the scale `s`. -/
def entry (xr pc : Fin 256 → EReal) (ppk s : EReal) : EReal :=
  -(max s (-s) * Ideal.sqrt (max ((ssq (unit xr) + ppk) - two * ∑ c : Fin 256, unit xr c * pc c) 0))

/-- The body's stored value at pixel (r, w), class k. -/
theorem pay_at (x0 : FVec Ideal S1x256x16x256 .f32) (x1 : FVec Ideal S256x19 .bf16) (x2 : FVec Ideal S19 .f32) (x3 : FVec Ideal S1 .f32)
    (r : Fin 16) (w : Fin 256) (k : Fin 19) :
    k0_pay1 (F := Ideal) (k0_pay2 (F := Ideal) x0 x1 x2 x3) (ix4 (0 : Fin 1) r w k)
      = entry (fun c => x0 (ix4 (0 : Fin 1) c r w)) (fun c => x1 (ix2 c k)) (x2 (ix1 k)) (x3 (ix1 0)) := by
  unfold k0_pay1 k0_pay2
  dsimp only
  rw [out_at]
  -- name the flattened block `R`: row 256 r + w, channel c is the block at (c, r, w)
  have hR : ∀ c : Fin 256, shapeCast S4096x256 (transpose S16x256x256 [1, 2, 0] (shapeCast S256x16x256 x0 shapeCasts_S1x256x16x256_S256x16x256)
      transposes_S256x16x256_p1_2_0_S16x256x256) shapeCasts_S16x256x256_S4096x256 (ix2 (brow r w) c) = x0 (ix4 (0 : Fin 1) c r w) :=
    fun c => rows_at x0 _ _ _ r w c
  generalize shapeCast S4096x256 (transpose S16x256x256 [1, 2, 0] (shapeCast S256x16x256 x0 shapeCasts_S1x256x16x256_S256x16x256)
      transposes_S256x16x256_p1_2_0_S16x256x256) shapeCasts_S16x256x256_S4096x256 = R at hR ⊢
  -- the pointwise operations, the spreads and the product read at the entry; then each row sum, outermost first
  simp only [mulf_apply, subf_apply, addf_apply, divf_apply, maximumf_apply, truncf_apply, broadcast_apply, sqrt_at,
    col19_at, col256_at, row19_at, mm_at, hR, shapeCast_self, scale_at, scale_at', Scalar.ofBits, Ideal.ofBits_def]
  rw [rowsum_at, rowsum_at]
  simp only [mulf_apply, divf_apply, maximumf_apply, broadcast_apply, sqrt_at, col256_at, hR, Ideal.ofBits_def]
  rw [rowsum_at]
  simp only [mulf_apply, hR]
  unfold entry unit ssq
  rw [zero_sub', mul_one']
  simp only [Ideal.ofBits_zero_f32]

end Cert.KBody

end
-- ==== Proof.KHost.lean ====
/-
  What the region finds in the two arrays the host computes before it.

  Before the region the host scales each prototype row to unit length, transposes the 19 × 256 result to
  256 × 19 (the matrix the body multiplies with) and sums each unit row's squares.  These are, operation
  for operation, the reference's own prototype stages, so the matrix entry (c, k) is channel c of the unit
  prototype k, and entry k of the sums is that unit prototype's sum of squares.
-/
import proofs.«147738_j75780402971149_1_alg».proof.Proof.Gen.KernelIdeal.Frame
import proofs.«147738_j75780402971149_1_alg».proof.Proof.RefSide
import Idealize.ShloMosaic.Lib.StableHlo.Run
import Idealize.ShloMosaic.Lib.Pipeline.Value

noncomputable section

open scoped BigOperators

namespace Cert.KHost

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ)

/-- The prototype array as launched. -/
abbrev protos (c : Dev nD) : FVec Ideal S19x256 .f32 := m ((c : Thread nD τ).loc main_arg1)

/-- The sums of squares the region finds are the reference's stage of the same name. -/
theorem V_sums (c : Dev nD) :
    V m c main_v11 = Cert.ReferenceIdeal.Read.val_main_v21 (F := Ideal) (protos m c) := by
  show StableHlo.after hostOps0 (fun b => m (c, b)) (Proc.devRef .tc main_v11) = _
  after_results
  rfl

/-- The matrix the region finds is the reference's unit prototypes, transposed. -/
theorem V_matrix (c : Dev nD) :
    V m c main_v9 = (truncf .bf16 (transpose S256x19 [1, 0] (Cert.ReferenceIdeal.Read.val_main_v17 (F := Ideal) (protos m c))
      transposes_S19x256_S256x19_1_0) bitsLt_bf16_f32 : FVec Ideal S256x19 .bf16) := by
  show StableHlo.after hostOps0 (fun b => m (c, b)) (Proc.devRef .tc main_v9) = _
  after_results
  rfl

/-- Entry k of the sums: the unit prototype's sum of squares. -/
theorem sums_at (c : Dev nD) (k : Fin 19) :
    (V m c main_v11 : S19.Idx → EReal) (ix1 k) = ssq (unit (proto (protos m c) k)) := by
  rw [V_sums]
  exact Cert.RefSide.v21_at (protos m c) k

/-- Entry (c, k) of the matrix: channel c of unit prototype k. -/
theorem matrix_at (c : Dev nD) (cc : Fin 256) (k : Fin 19) :
    (V m c main_v9 : S256x19.Idx → EReal) (ix2 cc k) = unit (proto (protos m c) k) cc := by
  rw [V_matrix]
  show transpose S256x19 [1, 0] (Cert.ReferenceIdeal.Read.val_main_v17 (F := Ideal) (protos m c)) transposes_S19x256_S256x19_1_0 (ix2 cc k) = _
  rw [transpose_apply [1, 0] _ transposes_S19x256_S256x19_1_0 (ix2 cc k) (ix2 k cc) (fun b => match b with | ⟨0, _⟩ => rfl | ⟨1, _⟩ => rfl)]
  exact Cert.RefSide.v17_at (protos m c) k cc

end Cert.KHost

end
-- ==== Proof.KBlocks.lean ====
/-
  From the blocks the grid points write to the whole array the region leaves.

  Grid point t handles image b and the band of sixteen rows 16 h … 16 h + 15 (its two coordinates; the
  printed index maps send it to block (b, 0, h, 0) of the feature array and block (b, h, 0, 0) of the
  result, and to the one block of the matrix, the sums and the scale).  Entry (0, r, w, k) of what it
  writes back is therefore entry (b, 16 h + r, w, k) of the array `arr` whose entry (b, y, w, k) is the logit
  of pixel (b, y, w) against prototype k; the 128 blocks tile the array, so after the run the array is `arr`.
-/
import proofs.«147738_j75780402971149_1_alg».proof.Proof.Gen.KernelIdeal.Frame
import proofs.«147738_j75780402971149_1_alg».proof.Proof.KBody
import proofs.«147738_j75780402971149_1_alg».proof.Proof.KHost
import Idealize.ShloMosaic.Lib.Pipeline.Value

set_option maxRecDepth 16384

noncomputable section

open scoped BigOperators

namespace Cert.KBlocks

open Cert.KernelIdeal Cert.KernelIdeal.Gen Idealize.ShloMosaic Idealize.ShloMosaic.TcCoe Idealize.SL.Sem
open Idealize.ShloMosaic.Pipeline (Dat)
open Idealize.ShloMosaic.ValueIdx Cert.Spec

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The three argument arrays as launched. -/
abbrev feats (c : Dev nD) : FVec Ideal S16x256x128x256 .f32 := m ((c : Thread nD τ).loc main_arg0)
abbrev scale (c : Dev nD) : FVec Ideal S1 .f32 := m ((c : Thread nD τ).loc main_arg2)

/-- What the region's result array ends holding: entry (b, y, w, k) is the logit of pixel (b, y, w) against prototype k. -/
def arr (c : Dev nD) : S16x128x256x19.Idx → EReal :=
  fun i => logit (pixel (feats m c) (i 0) (i 1) (i 2)) (proto (Cert.KHost.protos m c) (i 3)) (scale m c (ix1 0))

/-- The printed index maps over the grid: the feature block follows the result block (image, band), every other block
    index is zero, and image and band stay in range. -/
theorem idx_facts : ∀ t : Fin cfg0.N,
    win0_0.index t (0 : Fin 4) = win0_4.index t (0 : Fin 4) ∧ win0_0.index t (1 : Fin 4) = 0
    ∧ win0_0.index t (2 : Fin 4) = win0_4.index t (1 : Fin 4) ∧ win0_0.index t (3 : Fin 4) = 0
    ∧ win0_4.index t (2 : Fin 4) = 0 ∧ win0_4.index t (3 : Fin 4) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 4) ≤ 15 ∧ win0_4.index t (1 : Fin 4) ≤ 7 :=
  (by decide +kernel : ∀ t : Fin grid0.N, _)

/-- Every (image, band) is some grid point's. -/
theorem idx_onto : ∀ (q0 : Fin 16) (q1 : Fin 8), ∃ t : Fin cfg0.N, win0_4.index t = ![q0.val, q1.val, 0, 0] :=
  (by decide +kernel : ∀ (q0 : Fin 16) (q1 : Fin 8), ∃ t : Fin grid0.N, win0_4.index t = ![q0.val, q1.val, 0, 0])

/-- The input blocks at a point, at their literal types. -/
abbrev xblk (c : Dev nD) (t : Fin cfg0.N) : FVec Ideal S1x256x16x256 .f32 := iblk m c 0 t
abbrev pblk (c : Dev nD) (t : Fin cfg0.N) : FVec Ideal S256x19 .bf16 := iblk m c 1 t
abbrev qblk (c : Dev nD) (t : Fin cfg0.N) : FVec Ideal S19 .f32 := iblk m c 2 t
abbrev sblk (c : Dev nD) (t : Fin cfg0.N) : FVec Ideal S1 .f32 := iblk m c 3 t

/-- The feature block at (0, c, r, w) is the feature array at (image, c, 16 band + r, w). -/
theorem xblk_at (c : Dev nD) (t : Fin cfg0.N) (cc : Fin 256) (r : Fin 16) (w : Fin 256) (i : S16x128x256x19.Idx)
    (h0 : (i 0).val = win0_4.index t (0 : Fin 4)) (h1 : (i 1).val = win0_4.index t (1 : Fin 4) * 16 + r.val) (h2 : (i 2).val = w.val) :
    xblk m c t (ix4 (0 : Fin 1) cc r w) = pixel (feats m c) (i 0) (i 1) (i 2) cc := by
  obtain ⟨e0, e1, e2, e3, -⟩ := idx_facts t
  show V m c main_arg0 (((cfg0.win 0).blk t).view.emb (ix4 (0 : Fin 1) cc r w)) = feats m c (ix4 (i 0) cc (i 1) (i 2))
  rw [V_main_arg0]
  refine congrArg (feats m c) (funext fun a => Fin.ext ?_)
  have hc := cc.isLt; have hr := r.isLt; have hw := w.isLt
  match a with
  | ⟨0, _⟩ => show win0_0.index t (0 : Fin 4) * 1 + 1 * 0 = (i 0).val; omega
  | ⟨1, _⟩ => show win0_0.index t (1 : Fin 4) * 256 + 1 * cc.val = cc.val; omega
  | ⟨2, _⟩ => show win0_0.index t (2 : Fin 4) * 16 + 1 * r.val = (i 1).val; omega
  | ⟨3, _⟩ => show win0_0.index t (3 : Fin 4) * 256 + 1 * w.val = (i 2).val; omega

/-- The matrix block is the whole matrix: entry (c, k) is channel c of unit prototype k. -/
theorem pblk_at (c : Dev nD) (t : Fin cfg0.N) (cc : Fin 256) (k : Fin 19) :
    pblk m c t (ix2 cc k) = unit (proto (Cert.KHost.protos m c) k) cc := by
  obtain ⟨-, -, -, -, -, -, e6, e7, -⟩ := idx_facts t
  have e : ((cfg0.win 1).blk t).view.emb (ix2 cc k) = ix2 cc k := by
    refine funext fun a => Fin.ext ?_
    match a with
    | ⟨0, _⟩ => show win0_1.index t (0 : Fin 2) * 256 + 1 * cc.val = cc.val; omega
    | ⟨1, _⟩ => show win0_1.index t (1 : Fin 2) * 19 + 1 * k.val = k.val; omega
  show (V m c main_v9 : S256x19.Idx → EReal) (((cfg0.win 1).blk t).view.emb (ix2 cc k)) = _
  rw [e]
  exact Cert.KHost.matrix_at m c cc k

/-- The sums block is the whole vector of sums. -/
theorem qblk_at (c : Dev nD) (t : Fin cfg0.N) (k : Fin 19) :
    qblk m c t (ix1 k) = ssq (unit (proto (Cert.KHost.protos m c) k)) := by
  obtain ⟨-, -, -, -, -, -, -, -, e8, -⟩ := idx_facts t
  have e : ((cfg0.win 2).blk t).view.emb (ix1 k) = ix1 k := by
    refine funext fun a => Fin.ext ?_
    match a with
    | ⟨0, _⟩ => show win0_2.index t (0 : Fin 1) * 19 + 1 * k.val = k.val; omega
  show (V m c main_v11 : S19.Idx → EReal) (((cfg0.win 2).blk t).view.emb (ix1 k)) = _
  rw [e]
  exact Cert.KHost.sums_at m c k

/-- The scale block is the scale. -/
theorem sblk_at (c : Dev nD) (t : Fin cfg0.N) : sblk m c t (ix1 0) = scale m c (ix1 0) := by
  obtain ⟨-, -, -, -, -, -, -, -, -, e9, -⟩ := idx_facts t
  have e : ((cfg0.win 3).blk t).view.emb (ix1 (0 : Fin 1)) = ix1 (0 : Fin 1) := by
    refine funext fun a => Fin.ext ?_
    match a with
    | ⟨0, _⟩ => show win0_3.index t (0 : Fin 1) * 1 + 1 * 0 = 0; omega
  show V m c main_arg2 (((cfg0.win 3).blk t).view.emb (ix1 (0 : Fin 1))) = _
  rw [e, V_main_arg2]

/-- What point t writes back is block t of `arr`. -/
theorem flushed_eq (c : Dev nD) (t : Fin cfg0.N) :
    (dats m 0 c).flushed 4 t = ((cfg0.win 4).blk t).view.read (Elt Ideal) (arr m c) := by
  show (cfg0.win 4).cut (grid0.coords t) ((dats m 0 c).after 4 t) = _
  rw [after0_4]
  unfold out0_4
  rw [View.canon_unit_zero hz4]
  simp only [View.ld_unit_zero (S := S1x256x16x256) hz4, View.ld_unit_zero (S := S256x19) hz2, View.ld_unit_zero (S := S19) hz1,
    View.ld_unit_zero (S := S1) hz1]
  funext j
  obtain ⟨z, r, w, k, rfl⟩ : ∃ (z : Fin 1) (r : Fin 16) (w : Fin 256) (k : Fin 19), j = ix4 z r w k :=
    ⟨j 0, j 1, j 2, j 3, eq_ix4 j⟩
  obtain rfl : z = 0 := Fin.ext (by have := z.isLt; omega)
  obtain ⟨-, -, -, -, e4, e5, -⟩ := idx_facts t
  have hr := r.isLt; have hw := w.isLt; have hk := k.isLt
  show k0_pay1 (F := Ideal) (k0_pay2 (F := Ideal) (xblk m c t) (pblk m c t) (qblk m c t) (sblk m c t)) (ix4 (0 : Fin 1) r w k)
    = arr m c (((cfg0.win 4).blk t).view.emb (ix4 (0 : Fin 1) r w k))
  refine (Cert.KBody.pay_at (xblk m c t) (pblk m c t) (qblk m c t) (sblk m c t) r w k).trans ?_
  have hx : (fun cc => xblk m c t (ix4 (0 : Fin 1) cc r w))
      = pixel (feats m c) ((((cfg0.win 4).blk t).view.emb (ix4 (0 : Fin 1) r w k)) 0) ((((cfg0.win 4).blk t).view.emb (ix4 (0 : Fin 1) r w k)) 1)
          ((((cfg0.win 4).blk t).view.emb (ix4 (0 : Fin 1) r w k)) 2) :=
    funext fun cc => xblk_at m c t cc r w _
      (by show win0_4.index t (0 : Fin 4) * 1 + 1 * 0 = win0_4.index t (0 : Fin 4); omega)
      (by show win0_4.index t (1 : Fin 4) * 16 + 1 * r.val = win0_4.index t (1 : Fin 4) * 16 + r.val; omega)
      (by show win0_4.index t (2 : Fin 4) * 256 + 1 * w.val = w.val; omega)
  have hk3 : (((cfg0.win 4).blk t).view.emb (ix4 (0 : Fin 1) r w k)) 3 = k :=
    Fin.ext (by show win0_4.index t (3 : Fin 4) * 19 + 1 * k.val = k.val; omega)
  have hp : (fun cc => pblk m c t (ix2 cc k)) = unit (proto (Cert.KHost.protos m c) k) := funext fun cc => pblk_at m c t cc k
  unfold arr
  rw [hx, hp, qblk_at, sblk_at, hk3]
  rfl

/-- An index of the array is in point t's block iff each coordinate is in the block's range on its axis. -/
theorem mem_blk (t : Fin cfg0.N) (i : S16x128x256x19.Idx) :
    i ∈ ((cfg0.win 4).blk t).view.set ↔ ∀ a : Fin 4, win0_4.index t a * S1x16x256x19.size a ≤ (i a).val ∧ (i a).val < win0_4.index t a * S1x16x256x19.size a + S1x16x256x19.size a := by
  show i ∈ ((View.whole main_v12).slice (win0_4.rect t)).set ↔ _
  rw [View.set_slice_whole, Rect.mem_set_unit]
  exact Iff.rfl

/-- The blocks cover the array. -/
theorem cover (i : S16x128x256x19.Idx) : ∃ t : Fin cfg0.N, (cfg0.win 4).flush t = true ∧ i ∈ ((cfg0.win 4).blk t).view.set := by
  have hi0 : (i 0).val < 16 := (i 0).isLt
  have hi1 : (i 1).val < 128 := (i 1).isLt
  have hi2 : (i 2).val < 256 := (i 2).isLt
  have hi3 : (i 3).val < 19 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 19 ≤ (i 3).val ∧ (i 3).val < win0_4.index t (3 : Fin 4) * 19 + 19; omega

/-- After the run the region's result array is `arr`. -/
theorem final (c : Dev nD) : (dats m 0 c).arrAt 4 cfg0.N = arr m c :=
  (dats m 0 c).arrAt_eq_of_cover 4 (arr m c) (fun t _ => flushed_eq m c t) cover

end Cert.KBlocks

end
-- ==== Proof.KRun.lean ====
/-
  The idealized kernel's run, read: its result is the specification's array.

  After the region the host moves the class axis of the region's result forward: entry (b, k, y, w) of the
  program's result is entry (b, y, w, k) of the region's array, the logit of pixel (b, y, w) against
  prototype k, which is `Spec.logits` at (b, k, y, w).  The argument arrays end as launched.
-/
import proofs.«147738_j75780402971149_1_alg».proof.Proof.Gen.KernelIdeal.Frame
import proofs.«147738_j75780402971149_1_alg».proof.Proof.KBlocks
import Idealize.ShloMosaic.Lib.StableHlo.Run
import Idealize.ShloMosaic.Lib.Pipeline.Value

noncomputable section

open scoped BigOperators

namespace Cert.KRun

open Cert.KernelIdeal Cert.KernelIdeal.Gen Idealize.ShloMosaic Idealize.ShloMosaic.TcCoe Idealize.SL.Sem
open Idealize.ShloMosaic.StableHlo Idealize.ShloMosaic.ValueIdx Cert.Spec Cert.KBlocks

variable (m : (ℓ : Loc nD τ sig) → Buf (Elt Ideal) ℓ) (ρ : Dev nD → PrngReg)

/-- The specification's array of the three arguments as launched. -/
abbrev result (c : Dev nD) : S16x19x128x256.Idx → EReal := logits (feats m c) (Cert.KHost.protos m c) (scale m c)

/-- The program's result after the closing transpose is the specification's array. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  rw [(Pipeline.withArrays_arr spec0 launch0.win.arr_inj c _ _ 4).trans (final m c)]
  funext i
  rw [transpose_apply [0, 3, 1, 2] _ transposes_S16x128x256x19_S16x19x128x256_0_3_1_2 i (ix4 (i 0) (i 2) (i 3) (i 1))
    (fun b => match b with | ⟨0, _⟩ => rfl | ⟨1, _⟩ => rfl | ⟨2, _⟩ => rfl | ⟨3, _⟩ => rfl)]
  rfl

/-- Every weakly fair execution of the idealized kernel terminates with its result at the specification's array and
    its arguments as launched. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v13 (Pipeline.mem_restRefs_of main_v13 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).1 3).trans (((dats m 0 c).arrAt_in 3 rfl _).trans ((A_eq m c 3).trans (V_main_arg2 m c)))⟩)
    (run_main m ρ)

end Cert.KRun

end
-- ==== Proof.lean ====
/-
  The certificate: the distance-logits kernel against its reference, over the extended reals.

  Both programs compute `Spec.logits`: for every pixel's channel vector and every prototype, each scaled to unit
  length with the norm floored at 1e-12, the negated |s|-scaled root of the clamped quadratic expansion
  ‖u‖² + ‖q‖² − 2⟨u, q⟩.  The kernel does it block by block over bands of sixteen image rows, with the unit
  prototypes and their sums of squares prepared on the host and the class axis moved forward afterwards; it
  negates by subtracting from zero and multiplies by one where the reference negates and divides by one, which
  is the same on the extended reals.  No finiteness of the inputs is needed.  The frames of the two kernel
  programs are the generated ones; the reference's frame is its generated run with the result dropped; the
  ideal pass rewrote nothing.
-/
import proofs.«147738_j75780402971149_1_alg».proof.Defs
import proofs.«147738_j75780402971149_1_alg».proof.Proof.Gen.Kernel
import proofs.«147738_j75780402971149_1_alg».proof.Proof.Gen.Kernel.Skeleton
import proofs.«147738_j75780402971149_1_alg».proof.Proof.Gen.Kernel.Launch
import proofs.«147738_j75780402971149_1_alg».proof.Proof.Gen.Kernel.Points
import proofs.«147738_j75780402971149_1_alg».proof.Proof.Gen.Kernel.Frame
import proofs.«147738_j75780402971149_1_alg».proof.Proof.Gen.KernelIdeal
import proofs.«147738_j75780402971149_1_alg».proof.Proof.Gen.KernelIdeal.Skeleton
import proofs.«147738_j75780402971149_1_alg».proof.Proof.Gen.KernelIdeal.Launch
import proofs.«147738_j75780402971149_1_alg».proof.Proof.Gen.KernelIdeal.Points
import proofs.«147738_j75780402971149_1_alg».proof.Proof.Gen.KernelIdeal.Frame
import proofs.«147738_j75780402971149_1_alg».proof.Proof.Gen.ReferenceIdeal
import proofs.«147738_j75780402971149_1_alg».proof.Proof.Gen.ReferenceIdeal.Run
import proofs.«147738_j75780402971149_1_alg».proof.Proof.Gen.ReferenceIdeal.Read
import proofs.«147738_j75780402971149_1_alg».proof.Proof.Gen.Pre_finite_inputs
import proofs.«147738_j75780402971149_1_alg».proof.Proof.RefSide
import proofs.«147738_j75780402971149_1_alg».proof.Proof.KRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the specification's array. -/
theorem algebraic : Cert.algebraic_KernelIdeal_ReferenceIdeal := by
  intro m ρ m' ρ' _ hagree
  refine ⟨fun c => Cert.KRun.result m c, Cert.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
